-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x25 : Shape := ⟨2, ![16, 25]⟩
abbrev S16x300 : Shape := ⟨2, ![16, 300]⟩
abbrev S16x300x25x512 : Shape := ⟨4, ![16, 300, 25, 512]⟩
abbrev S1x300x25 : Shape := ⟨3, ![1, 300, 25]⟩
abbrev S_ : Shape := ⟨0, ![]⟩

class Facts : Prop where
  bcast_S_S16x25 : S_.BroadcastsInDim S16x25 (![] : Fin 0 → Fin S16x25.rank)
  reducesTo_S16x25_S_d0_1 : S16x25.ReducesTo [0, 1] S_
  h_S_ : 0 < S_.numel
  bcast_S_S16x300 : S_.BroadcastsInDim S16x300 (![] : Fin 0 → Fin S16x300.rank)
  reducesTo_S16x300_S_d0_1 : S16x300.ReducesTo [0, 1] S_
  bcast_S_S16x300x25x512 : S_.BroadcastsInDim S16x300x25x512 (![] : Fin 0 → Fin S16x300x25x512.rank)
  reducesTo_S16x300x25x512_S_d0_1_2_3 : S16x300x25x512.ReducesTo [0, 1, 2, 3] S_
  bcast_S_S1x300x25 : S_.BroadcastsInDim S1x300x25 (![] : Fin 0 → Fin S1x300x25.rank)
  reducesTo_S1x300x25_S_d0_1_2 : S1x300x25.ReducesTo [0, 1, 2] S_

variable [Facts]

def fn_part1 {F : FTy → Type} [FloatOps F] (main_v13 : IVec S_ 1) (main_v16 : IVec S1x300x25 1) : IVec S_ 1 :=
  let main_c_5 : IVec S_ 1 := constantI S_ 1 1#1
  let main_v17 : IVec S_ 1 := (fun x v => Host.reduce IntOp.andi x v reducesTo_S1x300x25_S_d0_1_2 h_S_) main_v16 main_c_5
  let main_v18 : IVec S_ 1 := andi main_v13 main_v17
  main_v18

def fn {F : FTy → Type} [FloatOps F] (main_arg0 : FVec F S16x25 .f32) (main_arg1 : FVec F S16x300 .f32) (main_arg2 : FVec F S16x300x25x512 .f32) (main_arg3 : FVec F S1x300x25 .f32) : IVec S_ 1 :=
  let main_v0 : FVec F S16x25 .f32 := Host.absf main_arg0
  let main_cst : FVec F S_ .f32 := constant S_ .f32 0x7F800000#32
  let main_v1 : FVec F S16x25 .f32 := broadcastInDim S16x25 ![] bcast_S_S16x25 main_cst
  let main_v2 : IVec S16x25 1 := cmpf .olt main_v0 main_v1
  let main_c : IVec S_ 1 := constantI S_ 1 1#1
  let main_v3 : IVec S_ 1 := (fun x v => Host.reduce IntOp.andi x v reducesTo_S16x25_S_d0_1 h_S_) main_v2 main_c
  let main_v4 : FVec F S16x300 .f32 := Host.absf main_arg1
  let main_cst_0 : FVec F S_ .f32 := constant S_ .f32 0x7F800000#32
  let main_v5 : FVec F S16x300 .f32 := broadcastInDim S16x300 ![] bcast_S_S16x300 main_cst_0
  let main_v6 : IVec S16x300 1 := cmpf .olt main_v4 main_v5
  let main_c_1 : IVec S_ 1 := constantI S_ 1 1#1
  let main_v7 : IVec S_ 1 := (fun x v => Host.reduce IntOp.andi x v reducesTo_S16x300_S_d0_1 h_S_) main_v6 main_c_1
  let main_v8 : IVec S_ 1 := andi main_v3 main_v7
  let main_v9 : FVec F S16x300x25x512 .f32 := Host.absf main_arg2
  let main_cst_2 : FVec F S_ .f32 := constant S_ .f32 0x7F800000#32
  let main_v10 : FVec F S16x300x25x512 .f32 := broadcastInDim S16x300x25x512 ![] bcast_S_S16x300x25x512 main_cst_2
  let main_v11 : IVec S16x300x25x512 1 := cmpf .olt main_v9 main_v10
  let main_c_3 : IVec S_ 1 := constantI S_ 1 1#1
  let main_v12 : IVec S_ 1 := (fun x v => Host.reduce IntOp.andi x v reducesTo_S16x300x25x512_S_d0_1_2_3 h_S_) main_v11 main_c_3
  let main_v13 : IVec S_ 1 := andi main_v8 main_v12
  let main_v14 : FVec F S1x300x25 .f32 := Host.absf main_arg3
  let main_cst_4 : FVec F S_ .f32 := constant S_ .f32 0x7F800000#32
  let main_v15 : FVec F S1x300x25 .f32 := broadcastInDim S1x300x25 ![] bcast_S_S1x300x25 main_cst_4
  let main_v16 : IVec S1x300x25 1 := cmpf .olt main_v14 main_v15
  fn_part1 (F := F) main_v13 main_v16
-- ==== Kernel.lean ====
abbrev S16x25 : Shape := ⟨2, ![16, 25]⟩
abbrev S16x300 : Shape := ⟨2, ![16, 300]⟩
abbrev S16x300x25x512 : Shape := ⟨4, ![16, 300, 25, 512]⟩
abbrev S1x300x25 : Shape := ⟨3, ![1, 300, 25]⟩
abbrev S_ : Shape := ⟨0, ![]⟩
abbrev S16 : Shape := ⟨1, ![16]⟩
abbrev S16x1 : Shape := ⟨2, ![16, 1]⟩
abbrev S16x1x25 : Shape := ⟨3, ![16, 1, 25]⟩
abbrev S16x300x1 : Shape := ⟨3, ![16, 300, 1]⟩
abbrev S16x300x25 : Shape := ⟨3, ![16, 300, 25]⟩
abbrev S16x300x25x1 : Shape := ⟨4, ![16, 300, 25, 1]⟩
abbrev S1x100x25x1 : Shape := ⟨4, ![1, 100, 25, 1]⟩
abbrev S1x100x25x512 : Shape := ⟨4, ![1, 100, 25, 512]⟩

abbrev nBuf : Space → Nat
  | .hbm => 33
  | .vmem => 6
  | .smem => 0
  | _ => 0

abbrev bufTy : (tb : Table) → Fin (tcTables nBuf tb) → BufTy
  | .hbm, ⟨0, _⟩ => ⟨S16x25, .f32⟩
  | .hbm, ⟨1, _⟩ => ⟨S16x300, .f32⟩
  | .hbm, ⟨2, _⟩ => ⟨S16x300x25x512, .f32⟩
  | .hbm, ⟨3, _⟩ => ⟨S1x300x25, .f32⟩
  | .hbm, ⟨4, _⟩ => ⟨S16x25, .f32⟩
  | .hbm, ⟨5, _⟩ => ⟨S_, .f32⟩
  | .hbm, ⟨6, _⟩ => ⟨S16, .f32⟩
  | .hbm, ⟨7, _⟩ => ⟨S16x1, .f32⟩
  | .hbm, ⟨8, _⟩ => ⟨S_, .f32⟩
  | .hbm, ⟨9, _⟩ => ⟨S16x1, .f32⟩
  | .hbm, ⟨10, _⟩ => ⟨S16x1, .f32⟩
  | .hbm, ⟨11, _⟩ => ⟨S16x1, .f32⟩
  | .hbm, ⟨12, _⟩ => ⟨S16x25, .f32⟩
  | .hbm, ⟨13, _⟩ => ⟨S16x25, .f32⟩
  | .hbm, ⟨14, _⟩ => ⟨S16x300, .f32⟩
  | .hbm, ⟨15, _⟩ => ⟨S_, .f32⟩
  | .hbm, ⟨16, _⟩ => ⟨S16, .f32⟩
  | .hbm, ⟨17, _⟩ => ⟨S16x1, .f32⟩
  | .hbm, ⟨18, _⟩ => ⟨S_, .f32⟩
  | .hbm, ⟨19, _⟩ => ⟨S16x1, .f32⟩
  | .hbm, ⟨20, _⟩ => ⟨S16x1, .f32⟩
  | .hbm, ⟨21, _⟩ => ⟨S16x1, .f32⟩
  | .hbm, ⟨22, _⟩ => ⟨S16x300, .f32⟩
  | .hbm, ⟨23, _⟩ => ⟨S16x300, .f32⟩
  | .hbm, ⟨24, _⟩ => ⟨S16x1x25, .f32⟩
  | .hbm, ⟨25, _⟩ => ⟨S16x300x1, .f32⟩
  | .hbm, ⟨26, _⟩ => ⟨S16x300x25, .f32⟩
  | .hbm, ⟨27, _⟩ => ⟨S16x300x25, .f32⟩
  | .hbm, ⟨28, _⟩ => ⟨S16x300x25, .f32⟩
  | .hbm, ⟨29, _⟩ => ⟨S16x300x25, .f32⟩
  | .hbm, ⟨30, _⟩ => ⟨S16x300x25, .f32⟩
  | .hbm, ⟨31, _⟩ => ⟨S16x300x25x1, .f32⟩
  | .hbm, ⟨32, _⟩ => ⟨S16x300x25x512, .f32⟩
  | .local _ .vmem, ⟨0, _⟩ => ⟨S1x100x25x1, .f32⟩
  | .local _ .vmem, ⟨1, _⟩ => ⟨S1x100x25x1, .f32⟩
  | .local _ .vmem, ⟨2, _⟩ => ⟨S1x100x25x512, .f32⟩
  | .local _ .vmem, ⟨3, _⟩ => ⟨S1x100x25x512, .f32⟩
  | .local _ .vmem, ⟨4, _⟩ => ⟨S1x100x25x512, .f32⟩
  | .local _ .vmem, ⟨5, _⟩ => ⟨S1x100x25x512, .f32⟩
  | _, _ => ⟨S16x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x100x25x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x100x25x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x100x25x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S16x25_S16_d1 : S16x25.ReducesTo [1] S16
  h_S_ : 0 < S_.numel
  bcast_S16_S16x1_0 : S16.BroadcastsInDim S16x1 (![0] : Fin 1 → Fin S16x1.rank)
  bcast_S_S16x1 : S_.BroadcastsInDim S16x1 (![] : Fin 0 → Fin S16x1.rank)
  bcast_S16x1_S16x25_0_1 : S16x1.BroadcastsInDim S16x25 (![0, 1] : Fin 2 → Fin S16x25.rank)
  reducesTo_S16x300_S16_d1 : S16x300.ReducesTo [1] S16
  bcast_S16x1_S16x300_0_1 : S16x1.BroadcastsInDim S16x300 (![0, 1] : Fin 2 → Fin S16x300.rank)
  bcast_S16x25_S16x1x25_0_2 : S16x25.BroadcastsInDim S16x1x25 (![0, 2] : Fin 2 → Fin S16x1x25.rank)
  bcast_S16x300_S16x300x1_0_1 : S16x300.BroadcastsInDim S16x300x1 (![0, 1] : Fin 2 → Fin S16x300x1.rank)
  bcast_S16x1x25_S16x300x25_0_1_2 : S16x1x25.BroadcastsInDim S16x300x25 (![0, 1, 2] : Fin 3 → Fin S16x300x25.rank)
  bcast_S16x300x1_S16x300x25_0_1_2 : S16x300x1.BroadcastsInDim S16x300x25 (![0, 1, 2] : Fin 3 → Fin S16x300x25.rank)
  bcast_S1x300x25_S16x300x25_0_1_2 : S1x300x25.BroadcastsInDim S16x300x25 (![0, 1, 2] : Fin 3 → Fin S16x300x25.rank)
  bcast_S16x300x25_S16x300x25x1_0_1_2 : S16x300x25.BroadcastsInDim S16x300x25x1 (![0, 1, 2] : Fin 3 → Fin S16x300x25x1.rank)
  inb_S1x100x25x1_S1x100x25x1_0_0_0_0 : ∀ a, (![0, 0, 0, 0] : Fin 4 → Nat) a + S1x100x25x1.size a ≤ S1x100x25x1.size a
  h_S1x100x25x1 : 0 < S1x100x25x1.numel
  shapeCasts_S1x100x25x1_S1x100x25x1 : S1x100x25x1.ShapeCasts S1x100x25x1
  inb_S1x100x25x512_S1x100x25x512_0_0_0_0 : ∀ a, (![0, 0, 0, 0] : Fin 4 → Nat) a + S1x100x25x512.size a ≤ S1x100x25x512.size a
  h_S1x100x25x512 : 0 < S1x100x25x512.numel
  broadcasts_S1x100x25x1_S1x100x25x512 : S1x100x25x1.Broadcasts S1x100x25x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x100x25x1.size a ≤ S16x300x25x1.size a
  hwx0_0 : ∀ i : grid0.Coords, EltTy.bits .f32 = 32 ∨ (Rect.block (s := S16x300x25x1) S1x100x25x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x100x25x512.size a ≤ S16x300x25x512.size a
  hwx0_1 : ∀ i : grid0.Coords, EltTy.bits .f32 = 32 ∨ (Rect.block (s := S16x300x25x512) S1x100x25x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x100x25x512.size a ≤ S16x300x25x512.size a
  hwx0_2 : ∀ i : grid0.Coords, EltTy.bits .f32 = 32 ∨ (Rect.block (s := S16x300x25x512) S1x100x25x512.size (cc0_transform_2 i) (hinb0_2 i)).WholeWords (EltTy.packing .f32)

variable [Facts₀]

abbrev win0_0 : Pipeline.Window sig grid0 :=
  Pipeline.Window.ofSpec (Memref.whole main_v23) S1x100x25x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x100x25x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x100x25x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x25 : Shape := ⟨2, ![16, 25]⟩
abbrev S16x300 : Shape := ⟨2, ![16, 300]⟩
abbrev S16x300x25x512 : Shape := ⟨4, ![16, 300, 25, 512]⟩
abbrev S1x300x25 : Shape := ⟨3, ![1, 300, 25]⟩
abbrev S_ : Shape := ⟨0, ![]⟩
abbrev S16 : Shape := ⟨1, ![16]⟩
abbrev S16x1 : Shape := ⟨2, ![16, 1]⟩
abbrev S16x1x25 : Shape := ⟨3, ![16, 1, 25]⟩
abbrev S16x300x1 : Shape := ⟨3, ![16, 300, 1]⟩
abbrev S16x300x25 : Shape := ⟨3, ![16, 300, 25]⟩
abbrev S16x300x25x1 : Shape := ⟨4, ![16, 300, 25, 1]⟩

abbrev nBuf : Space → Nat
  | .hbm => 34
  | .vmem => 0
  | .smem => 0
  | _ => 0

abbrev bufTy : (tb : Table) → Fin (tcTables nBuf tb) → BufTy
  | .hbm, ⟨0, _⟩ => ⟨S16x25, .f32⟩
  | .hbm, ⟨1, _⟩ => ⟨S16x300, .f32⟩
  | .hbm, ⟨2, _⟩ => ⟨S16x300x25x512, .f32⟩
  | .hbm, ⟨3, _⟩ => ⟨S1x300x25, .f32⟩
  | .hbm, ⟨4, _⟩ => ⟨S16x25, .f32⟩
  | .hbm, ⟨5, _⟩ => ⟨S_, .f32⟩
  | .hbm, ⟨6, _⟩ => ⟨S16, .f32⟩
  | .hbm, ⟨7, _⟩ => ⟨S16x1, .f32⟩
  | .hbm, ⟨8, _⟩ => ⟨S_, .f32⟩
  | .hbm, ⟨9, _⟩ => ⟨S16x1, .f32⟩
  | .hbm, ⟨10, _⟩ => ⟨S16x1, .f32⟩
  | .hbm, ⟨11, _⟩ => ⟨S16x1, .f32⟩
  | .hbm, ⟨12, _⟩ => ⟨S16x25, .f32⟩
  | .hbm, ⟨13, _⟩ => ⟨S16x25, .f32⟩
  | .hbm, ⟨14, _⟩ => ⟨S16x300, .f32⟩
  | .hbm, ⟨15, _⟩ => ⟨S_, .f32⟩
  | .hbm, ⟨16, _⟩ => ⟨S16, .f32⟩
  | .hbm, ⟨17, _⟩ => ⟨S16x1, .f32⟩
  | .hbm, ⟨18, _⟩ => ⟨S_, .f32⟩
  | .hbm, ⟨19, _⟩ => ⟨S16x1, .f32⟩
  | .hbm, ⟨20, _⟩ => ⟨S16x1, .f32⟩
  | .hbm, ⟨21, _⟩ => ⟨S16x1, .f32⟩
  | .hbm, ⟨22, _⟩ => ⟨S16x300, .f32⟩
  | .hbm, ⟨23, _⟩ => ⟨S16x300, .f32⟩
  | .hbm, ⟨24, _⟩ => ⟨S16x1x25, .f32⟩
  | .hbm, ⟨25, _⟩ => ⟨S16x300x1, .f32⟩
  | .hbm, ⟨26, _⟩ => ⟨S16x300x25, .f32⟩
  | .hbm, ⟨27, _⟩ => ⟨S16x300x25, .f32⟩
  | .hbm, ⟨28, _⟩ => ⟨S16x300x25, .f32⟩
  | .hbm, ⟨29, _⟩ => ⟨S16x300x25, .f32⟩
  | .hbm, ⟨30, _⟩ => ⟨S16x300x25, .f32⟩
  | .hbm, ⟨31, _⟩ => ⟨S16x300x25x1, .f32⟩
  | .hbm, ⟨32, _⟩ => ⟨S16x300x25x512, .f32⟩
  | .hbm, ⟨33, _⟩ => ⟨S16x300x25x512, .f32⟩
  | _, _ => ⟨S16x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  reducesTo_S16x25_S16_d1 : S16x25.ReducesTo [1] S16
  h_S_ : 0 < S_.numel
  bcast_S16_S16x1_0 : S16.BroadcastsInDim S16x1 (![0] : Fin 1 → Fin S16x1.rank)
  bcast_S_S16x1 : S_.BroadcastsInDim S16x1 (![] : Fin 0 → Fin S16x1.rank)
  bcast_S16x1_S16x25_0_1 : S16x1.BroadcastsInDim S16x25 (![0, 1] : Fin 2 → Fin S16x25.rank)
  reducesTo_S16x300_S16_d1 : S16x300.ReducesTo [1] S16
  bcast_S16x1_S16x300_0_1 : S16x1.BroadcastsInDim S16x300 (![0, 1] : Fin 2 → Fin S16x300.rank)
  bcast_S16x25_S16x1x25_0_2 : S16x25.BroadcastsInDim S16x1x25 (![0, 2] : Fin 2 → Fin S16x1x25.rank)
  bcast_S16x300_S16x300x1_0_1 : S16x300.BroadcastsInDim S16x300x1 (![0, 1] : Fin 2 → Fin S16x300x1.rank)
  bcast_S16x1x25_S16x300x25_0_1_2 : S16x1x25.BroadcastsInDim S16x300x25 (![0, 1, 2] : Fin 3 → Fin S16x300x25.rank)
  bcast_S16x300x1_S16x300x25_0_1_2 : S16x300x1.BroadcastsInDim S16x300x25 (![0, 1, 2] : Fin 3 → Fin S16x300x25.rank)
  bcast_S1x300x25_S16x300x25_0_1_2 : S1x300x25.BroadcastsInDim S16x300x25 (![0, 1, 2] : Fin 3 → Fin S16x300x25.rank)
  bcast_S16x300x25_S16x300x25x1_0_1_2 : S16x300x25.BroadcastsInDim S16x300x25x1 (![0, 1, 2] : Fin 3 → Fin S16x300x25x1.rank)
  bcast_S16x300x25x1_S16x300x25x512_0_1_2_3 : S16x300x25x1.BroadcastsInDim S16x300x25x512 (![0, 1, 2, 3] : Fin 4 → Fin S16x300x25x512.rank)

variable [Facts₀]

class Facts : Prop extends Facts₀ where

variable [Facts]
-- ==== Proof.AttentionMap.lean ====
/-
  The attention map and the product it scales.

  For s : [16,25], t : [16,300] and roi : [1,300,25] both programs first build, by the same sequence of host
  operations, the array of shape [16,300,25,1]

      a[b,h,w,0] = (s[b,w] · rsqrt (max (Σ_w' s[b,w']², ε))) · (t[b,h] · rsqrt (max (Σ_h' t[b,h']², ε))) + roi[0,h,w]

  (each row of s and of t scaled to unit Euclidean length, their outer product, plus the prior map), and the
  result is x[b,h,w,c] multiplied by a[b,h,w,0] on every lane c.  `attention` is that host term, kept closed:
  nothing below looks inside it, since the two programs agree on it operation for operation.  `scaled a x` is
  the product index by index, and `mul_lanes` says that multiplying x by a broadcast over the 512 lanes is
  `scaled a x`.  Everything here holds at every float instance: no law of arithmetic is used.
-/
import proofs.«104493_j21629455303185_1_alg».proof.Proof.Gen.KernelIdeal
import Idealize.ShloMosaic.Lib.Pipeline.Value

noncomputable section

namespace Cert.KernelIdeal.Hand

open Cert.KernelIdeal Idealize.ShloMosaic
open Cert.KernelIdeal.Facts₀

variable {F : FTy → Type} [FloatOps F]

/-- The attention map a[b,h,w,0] of the header, as the host operations compute it from s, t and roi. -/
def attention (s : FVec F S16x25 .f32) (t : FVec F S16x300 .f32) (roi : FVec F S1x300x25 .f32) : FVec F S16x300x25x1 .f32 :=
  broadcastInDim S16x300x25x1 ![0, 1, 2] bcast_S16x300x25_S16x300x25x1_0_1_2 (addf (mulf (broadcastInDim S16x300x25 ![0, 1, 2] bcast_S16x1x25_S16x300x25_0_1_2 (broadcastInDim S16x1x25 ![0, 2] bcast_S16x25_S16x1x25_0_2 (mulf s (broadcastInDim S16x25 ![0, 1] bcast_S16x1_S16x25_0_1 (Host.rsqrt (maximumf (broadcastInDim S16x1 ![0] bcast_S16_S16x1_0 (Host.reduceAdd (mulf s s) (constant S_ .f32 0x00000000#32) reducesTo_S16x25_S16_d1 h_S_)) (broadcastInDim S16x1 ![] bcast_S_S16x1 (constant S_ .f32 0x2B8CBCCC#32)))))))) (broadcastInDim S16x300x25 ![0, 1, 2] bcast_S16x300x1_S16x300x25_0_1_2 (broadcastInDim S16x300x1 ![0, 1] bcast_S16x300_S16x300x1_0_1 (mulf t (broadcastInDim S16x300 ![0, 1] bcast_S16x1_S16x300_0_1 (Host.rsqrt (maximumf (broadcastInDim S16x1 ![0] bcast_S16_S16x1_0 (Host.reduceAdd (mulf t t) (constant S_ .f32 0x00000000#32) reducesTo_S16x300_S16_d1 h_S_)) (broadcastInDim S16x1 ![] bcast_S_S16x1 (constant S_ .f32 0x2B8CBCCC#32))))))))) (broadcastInDim S16x300x25 ![0, 1, 2] bcast_S1x300x25_S16x300x25_0_1_2 roi))

/-- The entry (b, h, w, 0) of the attention map that scales the entry (b, h, w, c) of x. -/
def lane0 (i : S16x300x25x512.Idx) : S16x300x25x1.Idx := fun a => match a with
  | ⟨0, _⟩ => ⟨(i 0).val, by show (i 0).val < 16; exact (i 0).isLt⟩
  | ⟨1, _⟩ => ⟨(i 1).val, by show (i 1).val < 300; exact (i 1).isLt⟩
  | ⟨2, _⟩ => ⟨(i 2).val, by show (i 2).val < 25; exact (i 2).isLt⟩
  | ⟨3, _⟩ => ⟨0, by show 0 < 1; exact Nat.zero_lt_one⟩

/-- x with every lane of its row (b, h, w) multiplied by a[b,h,w,0]. -/
def scaled (a : FVec F S16x300x25x1 .f32) (x : FVec F S16x300x25x512 .f32) : FVec F S16x300x25x512 .f32 :=
  fun i => FloatOps.mulf (a (lane0 i)) (x i)

/-- Broadcasting a over the 512 lanes and multiplying by x entry by entry is `scaled a x`: the broadcast read at
    (b, h, w, c) is a at (b, h, w, 0). -/
theorem mul_lanes (h : S16x300x25x1.BroadcastsInDim S16x300x25x512 (![0, 1, 2, 3] : Fin 4 → Fin S16x300x25x512.rank))
    (a : FVec F S16x300x25x1 .f32) (x : FVec F S16x300x25x512 .f32) :
    mulf (broadcastInDim S16x300x25x512 ![0, 1, 2, 3] h a) x = scaled a x := by
  funext i
  show FloatOps.mulf (broadcastInDim S16x300x25x512 ![0, 1, 2, 3] h a i) (x i) = FloatOps.mulf (a (lane0 i)) (x i)
  rw [broadcastInDim_apply ![0, 1, 2, 3] h a i (lane0 i) (fun d => match d with
    | ⟨0, _⟩ => by show (i 0).val = (if (16 : Nat) = 1 then 0 else (i 0).val); rw [if_neg (by decide)]
    | ⟨1, _⟩ => by show (i 1).val = (if (300 : Nat) = 1 then 0 else (i 1).val); rw [if_neg (by decide)]
    | ⟨2, _⟩ => by show (i 2).val = (if (25 : Nat) = 1 then 0 else (i 2).val); rw [if_neg (by decide)]
    | ⟨3, _⟩ => by show 0 = (if (1 : Nat) = 1 then 0 else (i 3).val); rw [if_pos rfl])]

end Cert.KernelIdeal.Hand

end
-- ==== Proof.EntryAttention.lean ====
/-
  What the region finds in its first window's array.

  The 28 host operations before the region write, one after another, the squares, the row sums, the maxima with ε,
  the reciprocal square roots, the normalised rows, their outer product and the sum with the prior map; the last of
  them leaves the [16,300,25,1] array the first window stages.  Read back operation by operation, that array is
  `attention s t roi` of the three small arguments as launched.
-/
import proofs.«104493_j21629455303185_1_alg».proof.Proof.Gen.KernelIdeal.Frame
import proofs.«104493_j21629455303185_1_alg».proof.Proof.AttentionMap
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxHeartbeats 2000000 in
/-- The host operations before the region leave the attention map of the arguments in the first window's array. -/
theorem entry_attention (c : Dev nD) :
    (V m c main_v23 : S16x300x25x1.Idx → Elt F .f32)
      = attention (m ((c : Thread nD τ).loc main_arg0)) (m ((c : Thread nD τ).loc main_arg1)) (m ((c : Thread nD τ).loc main_arg3)) := by
  dsimp only [V, hostOps0]
  after_results
  rfl

end Cert.KernelIdeal.Hand

end
-- ==== Proof.BlockProduct.lean ====
/-
  The kernel's result array.

  The grid has 16 × 3 points; point (b, g) multiplies the block of x at rows b, heights 100g … 100g + 99 (all 25
  widths, all 512 lanes) by the matching block of the attention map, whose last axis has extent 1 and is repeated
  over the lanes.  So what a point writes back is the restriction to its block of the single function
  `scaled a x` of the two arrays the region finds (`flushed_eq`): an entry of the block with coordinates
  (0, h', w, c) sits at (b, 100g + h', w, c) in x and in the result and at (b, 100g + h', w, 0) in a.  The 48 blocks
  tile the [16,300,25,512] array — the block holding (b, h, w, c) is the one at (b, h / 100) — so after the run the
  array is `scaled a x` everywhere (`final`).  The host operations before the region leave a = `attention s t roi`
  of the arguments (`entry_attention`) and do not touch x, which gives `run`.
-/
import proofs.«104493_j21629455303185_1_alg».proof.Proof.Gen.KernelIdeal.Value
import proofs.«104493_j21629455303185_1_alg».proof.Proof.AttentionMap
import proofs.«104493_j21629455303185_1_alg».proof.Proof.EntryAttention
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero4 : (![0, 0, 0, 0] : Fin 4 → Nat) = fun _ => 0 := funext fun a => by fin_cases a <;> rfl

/-- What the body leaves in the output block, entry by entry: the attention block at (0, h', w, 0) times the x block
    at (0, h', w, c). -/
theorem body_apply (x0 : Vec F S1x100x25x1 .f32) (x1 : Vec F S1x100x25x512 .f32) (y : S1x100x25x512.Idx) :
    out0_2 x0 x1 y = FloatOps.mulf (x0 (Value.ix2_0 y)) (x1 y) := by
  have hy0 : (y 0).val < 1 := (y 0).isLt
  have e : Value.ix2_1 y = y := funext fun a => Fin.ext (by
    match a with
    | ⟨0, _⟩ => show 0 = (y 0).val; omega
    | ⟨1, _⟩ => rfl
    | ⟨2, _⟩ => rfl
    | ⟨3, _⟩ => rfl)
  unfold out0_2
  rw [Value.canon2_eq]
  show FloatOps.mulf (View.ld x0 r0_0 (Value.ix2_0 y)) (View.ld x1 r0_1 (Value.ix2_1 y)) = _
  rw [View.ld_unit_zero (S := S1x100x25x1) zero4, View.ld_unit_zero (S := S1x100x25x512) zero4, e]

/-- The three index maps over the grid: the two inputs' blocks move with the output's on the batch and height axes,
    every block starts at width 0 and lane 0, and the output's block indices range over 16 × 3. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (0 : Fin 4) ≤ 15 ∧ win0_2.index t (1 : Fin 4) ≤ 2
    ∧ win0_2.index t (2 : Fin 4) = 0 ∧ win0_2.index t (3 : Fin 4) = 0 :=
  (by decide +kernel : ∀ t : Fin grid0.N, _)

/-- Every pair (batch, third of the heights) is some point's output block. -/
theorem idx_onto : ∀ (q0 : Fin 16) (q1 : Fin 3), ∃ t : Fin cfg0.N, win0_2.index t = ![q0.val, q1.val, 0, 0] :=
  (by decide +kernel : ∀ (q0 : Fin 16) (q1 : Fin 3), ∃ t : Fin grid0.N, win0_2.index t = ![q0.val, q1.val, 0, 0])

/-- What point `t` writes back is block `t` of `scaled a x`, for a and x the arrays the region finds. -/
theorem flushed_eq (c : Dev nD) (t : Fin cfg0.N) :
    (dats m 0 c).flushed 2 t = ((cfg0.win 2).blk t).view.read (Elt F) (scaled (V m c main_v23) (V m c main_arg2)) := by
  rw [Value.flushed2]
  obtain ⟨a0, a1, a2, a3, b0, b1, b2, b3, -, -, o2, o3⟩ := idx_facts t
  funext j
  have hj0 : (j 0).val < 1 := (j 0).isLt
  have hj1 : (j 1).val < 100 := (j 1).isLt
  have hj2 : (j 2).val < 25 := (j 2).isLt
  have hj3 : (j 3).val < 512 := (j 3).isLt
  show out0_2 (iblk m c 0 t) (iblk m c 1 t) j = FloatOps.mulf (V m c main_v23 (lane0 (((cfg0.win 2).blk t).view.emb j))) (V m c main_arg2 (((cfg0.win 2).blk t).view.emb j))
  refine (body_apply (iblk m c 0 t) (iblk m c 1 t) j).trans ?_
  show FloatOps.mulf (V m c main_v23 (((cfg0.win 0).blk t).view.emb (Value.ix2_0 j))) (V m c main_arg2 (((cfg0.win 1).blk t).view.emb j)) = _
  have h0 : ((cfg0.win 0).blk t).view.emb (Value.ix2_0 j) = lane0 (((cfg0.win 2).blk t).view.emb j) := by
    funext a; apply Fin.ext
    match a with
    | ⟨0, _⟩ => show win0_0.index t (0 : Fin 4) * 1 + 1 * 0 = win0_2.index t (0 : Fin 4) * 1 + 1 * (j 0).val; omega
    | ⟨1, _⟩ => show win0_0.index t (1 : Fin 4) * 100 + 1 * (j 1).val = win0_2.index t (1 : Fin 4) * 100 + 1 * (j 1).val; omega
    | ⟨2, _⟩ => show win0_0.index t (2 : Fin 4) * 25 + 1 * (j 2).val = win0_2.index t (2 : Fin 4) * 25 + 1 * (j 2).val; omega
    | ⟨3, _⟩ => show win0_0.index t (3 : Fin 4) * 1 + 1 * 0 = 0; omega
  have h1 : ((cfg0.win 1).blk t).view.emb j = ((cfg0.win 2).blk t).view.emb j := by
    funext a; apply Fin.ext
    match a with
    | ⟨0, _⟩ => show win0_1.index t (0 : Fin 4) * 1 + 1 * (j 0).val = win0_2.index t (0 : Fin 4) * 1 + 1 * (j 0).val; omega
    | ⟨1, _⟩ => show win0_1.index t (1 : Fin 4) * 100 + 1 * (j 1).val = win0_2.index t (1 : Fin 4) * 100 + 1 * (j 1).val; omega
    | ⟨2, _⟩ => show win0_1.index t (2 : Fin 4) * 25 + 1 * (j 2).val = win0_2.index t (2 : Fin 4) * 25 + 1 * (j 2).val; omega
    | ⟨3, _⟩ => show win0_1.index t (3 : Fin 4) * 512 + 1 * (j 3).val = win0_2.index t (3 : Fin 4) * 512 + 1 * (j 3).val; omega
  rw [h0, h1]

/-- An index of the result array is in point `t`'s block iff each coordinate is in the block's range on its axis. -/
theorem mem_blk (t : Fin cfg0.N) (i : S16x300x25x512.Idx) :
    i ∈ ((cfg0.win 2).blk t).view.set ↔ ∀ a : Fin 4, win0_2.index t a * S1x100x25x512.size a ≤ (i a).val ∧ (i a).val < win0_2.index t a * S1x100x25x512.size a + S1x100x25x512.size a := by
  show i ∈ ((View.whole main_v24).slice (win0_2.rect t)).set ↔ _
  rw [View.set_slice_whole, Rect.mem_set_unit]
  exact Iff.rfl

/-- The blocks tile the array: the entry (b, h, w, c) is in the block of the point at (b, h / 100). -/
theorem covered (i : S16x300x25x512.Idx) :
    ∃ t : Fin cfg0.N, (cfg0.win 2).flush t = true ∧ i ∈ ((cfg0.win 2).blk t).view.set := by
  have hi0 : (i 0).val < 16 := (i 0).isLt
  have hi1 : (i 1).val < 300 := (i 1).isLt
  have hi2 : (i 2).val < 25 := (i 2).isLt
  have hi3 : (i 3).val < 512 := (i 3).isLt
  obtain ⟨t, ht⟩ := idx_onto ⟨(i 0).val, hi0⟩ ⟨(i 1).val / 100, by omega⟩
  have q0 : win0_2.index t (0 : Fin 4) = (i 0).val := congrFun ht 0
  have q1 : win0_2.index t (1 : Fin 4) = (i 1).val / 100 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 100 ≤ (i 1).val ∧ (i 1).val < win0_2.index t (1 : Fin 4) * 100 + 100; omega
  | ⟨2, _⟩ => show win0_2.index t (2 : Fin 4) * 25 ≤ (i 2).val ∧ (i 2).val < win0_2.index t (2 : Fin 4) * 25 + 25; omega
  | ⟨3, _⟩ => show win0_2.index t (3 : Fin 4) * 512 ≤ (i 3).val ∧ (i 3).val < win0_2.index t (3 : Fin 4) * 512 + 512; omega

/-- After the run the result array is `scaled a x` of the arrays the region found. -/
theorem final (c : Dev nD) : (dats m 0 c).arrAt 2 cfg0.N = scaled (V m c main_v23) (V m c main_arg2) :=
  (dats m 0 c).arrAt_eq_of_cover 2 (scaled (V m c main_v23) (V m c main_arg2)) (fun t _ => flushed_eq m c t) covered

/-- The run, read: the result array at `scaled (attention s t roi) x` of the arguments, the arguments unchanged. -/
theorem run : θ_run defs (onTc (τ := τ) (main (F := F))) ⟨m, fun _ => 0, ρ⟩ fun r => ∀ c : Dev nD,
      r.2.mem ((c : Thread nD τ).loc main_v24)
        = scaled (attention (m ((c : Thread nD τ).loc main_arg0)) (m ((c : Thread nD τ).loc main_arg1)) (m ((c : Thread nD τ).loc main_arg3))) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by rw [entry_attention m c, V_main_arg2 m c])), (h c).2⟩)
    (Value.run_blocks m ρ)

end Cert.KernelIdeal.Hand

end
-- ==== Proof.ReferenceProduct.lean ====
/-
  The reference's result as the same function of the arguments.

  The reference computes the attention map a by the very operations of `attention` (the same multiplications, row
  sums, maxima with ε, reciprocal square roots, broadcasts and the added prior, in the same order with the same
  literals), then broadcasts a over the 512 lanes and multiplies by x entry by entry.  The first fact is an identity
  of terms (`attention_eq`); the second is `mul_lanes`.  So its result is `scaled (attention s t roi) x`.
-/
import proofs.«104493_j21629455303185_1_alg».proof.Proof.Gen.ReferenceIdeal
import proofs.«104493_j21629455303185_1_alg».proof.Proof.AttentionMap

noncomputable section

namespace Cert.ReferenceIdeal.Hand

open Cert.ReferenceIdeal Idealize.ShloMosaic
open Cert.ReferenceIdeal.Facts₀

variable {F : FTy → Type} [FloatOps F]

/-- The reference's attention map is `attention s t roi`: the two host programs spell one term. -/
theorem attention_eq (s : FVec F S16x25 .f32) (t : FVec F S16x300 .f32) (roi : FVec F S1x300x25 .f32) :
    (broadcastInDim S16x300x25x1 ![0, 1, 2] bcast_S16x300x25_S16x300x25x1_0_1_2 (addf (mulf (broadcastInDim S16x300x25 ![0, 1, 2] bcast_S16x1x25_S16x300x25_0_1_2 (broadcastInDim S16x1x25 ![0, 2] bcast_S16x25_S16x1x25_0_2 (mulf s (broadcastInDim S16x25 ![0, 1] bcast_S16x1_S16x25_0_1 (Host.rsqrt (maximumf (broadcastInDim S16x1 ![0] bcast_S16_S16x1_0 (Host.reduceAdd (mulf s s) (constant S_ .f32 0x00000000#32) reducesTo_S16x25_S16_d1 h_S_)) (broadcastInDim S16x1 ![] bcast_S_S16x1 (constant S_ .f32 0x2B8CBCCC#32)))))))) (broadcastInDim S16x300x25 ![0, 1, 2] bcast_S16x300x1_S16x300x25_0_1_2 (broadcastInDim S16x300x1 ![0, 1] bcast_S16x300_S16x300x1_0_1 (mulf t (broadcastInDim S16x300 ![0, 1] bcast_S16x1_S16x300_0_1 (Host.rsqrt (maximumf (broadcastInDim S16x1 ![0] bcast_S16_S16x1_0 (Host.reduceAdd (mulf t t) (constant S_ .f32 0x00000000#32) reducesTo_S16x300_S16_d1 h_S_)) (broadcastInDim S16x1 ![] bcast_S_S16x1 (constant S_ .f32 0x2B8CBCCC#32))))))))) (broadcastInDim S16x300x25 ![0, 1, 2] bcast_S1x300x25_S16x300x25_0_1_2 roi)))
      = Cert.KernelIdeal.Hand.attention s t roi := rfl

/-- The reference's result term is `scaled (attention s t roi) x`. -/
theorem result_eq (s : FVec F S16x25 .f32) (t : FVec F S16x300 .f32) (x : FVec F S16x300x25x512 .f32) (roi : FVec F S1x300x25 .f32) :
    mulf (broadcastInDim S16x300x25x512 ![0, 1, 2, 3] bcast_S16x300x25x1_S16x300x25x512_0_1_2_3 (broadcastInDim S16x300x25x1 ![0, 1, 2] bcast_S16x300x25_S16x300x25x1_0_1_2 (addf (mulf (broadcastInDim S16x300x25 ![0, 1, 2] bcast_S16x1x25_S16x300x25_0_1_2 (broadcastInDim S16x1x25 ![0, 2] bcast_S16x25_S16x1x25_0_2 (mulf s (broadcastInDim S16x25 ![0, 1] bcast_S16x1_S16x25_0_1 (Host.rsqrt (maximumf (broadcastInDim S16x1 ![0] bcast_S16_S16x1_0 (Host.reduceAdd (mulf s s) (constant S_ .f32 0x00000000#32) reducesTo_S16x25_S16_d1 h_S_)) (broadcastInDim S16x1 ![] bcast_S_S16x1 (constant S_ .f32 0x2B8CBCCC#32)))))))) (broadcastInDim S16x300x25 ![0, 1, 2] bcast_S16x300x1_S16x300x25_0_1_2 (broadcastInDim S16x300x1 ![0, 1] bcast_S16x300_S16x300x1_0_1 (mulf t (broadcastInDim S16x300 ![0, 1] bcast_S16x1_S16x300_0_1 (Host.rsqrt (maximumf (broadcastInDim S16x1 ![0] bcast_S16_S16x1_0 (Host.reduceAdd (mulf t t) (constant S_ .f32 0x00000000#32) reducesTo_S16x300_S16_d1 h_S_)) (broadcastInDim S16x1 ![] bcast_S_S16x1 (constant S_ .f32 0x2B8CBCCC#32))))))))) (broadcastInDim S16x300x25 ![0, 1, 2] bcast_S1x300x25_S16x300x25_0_1_2 roi)))) x
      = Cert.KernelIdeal.Hand.scaled (Cert.KernelIdeal.Hand.attention s t roi) x := by
  rw [attention_eq s t roi]
  exact Cert.KernelIdeal.Hand.mul_lanes _ _ _

end Cert.ReferenceIdeal.Hand

end
-- ==== Proof.lean ====
/-
  The certificate: the kernel and its reference compute the same array over the extended reals.

  Both programs build the attention map a = `attention s t roi` by the same host operations.  The kernel then
  multiplies x by a block by block, each of its 48 grid points repeating the block of a over the 512 lanes; the
  reference broadcasts a over the lanes once and multiplies the whole arrays.  Either way the entry (b, h, w, c) of
  the result is a[b,h,w,0] · x[b,h,w,c], the function `scaled a x`: the kernel's array by the block arithmetic of
  Proof/BlockProduct.lean, the reference's by Proof/ReferenceProduct.lean.  The two sides are the same term of the
  same operands, so no law of extended-real arithmetic is needed and finiteness of the inputs is never used.
  The three frames are the generated frame runs (the reference's is its generated run with the result dropped); the
  idealisation rewrote nothing, so there is nothing to preserve.
-/
import proofs.«104493_j21629455303185_1_alg».proof.Defs
import proofs.«104493_j21629455303185_1_alg».proof.Proof.Gen.Kernel
import proofs.«104493_j21629455303185_1_alg».proof.Proof.Gen.Kernel.Frame
import proofs.«104493_j21629455303185_1_alg».proof.Proof.Gen.KernelIdeal
import proofs.«104493_j21629455303185_1_alg».proof.Proof.Gen.KernelIdeal.Frame
import proofs.«104493_j21629455303185_1_alg».proof.Proof.Gen.KernelIdeal.Value
import proofs.«104493_j21629455303185_1_alg».proof.Proof.Gen.ReferenceIdeal
import proofs.«104493_j21629455303185_1_alg».proof.Proof.Gen.ReferenceIdeal.Run
import proofs.«104493_j21629455303185_1_alg».proof.Proof.Gen.Pre_finite_inputs
import proofs.«104493_j21629455303185_1_alg».proof.Proof.AttentionMap
import proofs.«104493_j21629455303185_1_alg».proof.Proof.BlockProduct
import proofs.«104493_j21629455303185_1_alg».proof.Proof.ReferenceProduct
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the four arguments both runs end with the result array at
    `scaled (attention s t roi) x` and the arguments unchanged. -/
theorem algebraic : Cert.algebraic_KernelIdeal_ReferenceIdeal := by
  intro m ρ m' ρ' _ hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.ReferenceIdeal.Hand.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
